-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 5
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .bf16⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S10000x128, .bf16⟩
  | .local _ .vmem, ⟨8, _⟩ => ⟨S400x128, .f32⟩
  | .local _ .vmem, ⟨9, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  shapeCasts_S10000x128_S10000x128 : S10000x128.ShapeCasts S10000x128
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .bf16 = 32 ∨ (Rect.block (s := S10000x128) S10000x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Bits.SupportRegion.lean ====
/-
  Region 0 of the program: the product `x · W` of the [10000, 128] features with the [128, 128] weights, computed in one
  step on whole arrays and stored narrowed to bf16 into the intermediate array.  Stated at a parameter `V`, the contents
  of the core's buffers when the region is entered, and at any float instance `F`.

  The region has no grid: each of its three windows is its whole array and there is a single point.  The two operand
  windows are only read, so after the body their staging buffers still hold the operands; the result window's staging
  buffer is overwritten whole by the one store, so it holds the narrowed product of the two operands whatever it held
  before.  From these the body obligation of the pipeline follows at that point.
-/
import proofs.«160435_g60198261620747_cont_9to1c4b_559_6_alg».proof.Proof.Gen.Kernel.Launch
import proofs.«160435_g60198261620747_cont_9to1c4b_559_6_alg».proof.Proof.Gen.Kernel.Skeleton
import proofs.«160435_g60198261620747_cont_9to1c4b_559_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Support

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at the point: its whole array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' staging buffer holds the features when the body runs, for any proof data over `V` whose body leaves
    them in place. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weights' staging buffer holds the weights when the body runs, likewise. -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each is the whole of its buffer -/

abbrev rX : Rect S10000x128 := Rect.unit (s := S10000x128) ![0, 0] S10000x128.size inb_S10000x128_S10000x128_0_0
abbrev rW : Rect S128x128 := Rect.unit (s := S128x128) ![0, 0] S128x128.size inb_S128x128_S128x128_0_0

/-! ## What the body leaves in the result's staging buffer -/

/-- The result's staging buffer after the body: the narrowed product of the two operands, written over all of it. -/
def out2 (x0 : Vec F S10000x128 .f32) (x1 : Vec F S128x128 .f32) : Vec F S10000x128 .bf16 :=
  View.canon [⟨rX, k0_pay1 (View.ld x0 rX) (View.ld x1 rW)⟩]

/-- The one store covers the buffer. -/
theorem cover2 (p0 : Vec F S10000x128 .bf16) (y : S10000x128.Idx) :
    ∃ pc ∈ ([⟨rX, p0⟩] : List (View.Piece (Elt F) S10000x128 .bf16)), y ∈ pc.1.set :=
  View.cover_of_tiled [⟨rX, p0⟩] S10000x128.size (by rfl) y

/-! ## The body's triple -/

set_option maxHeartbeats 1000000 in
/-- The body on whole staging buffers, the operands' at `x0` and `x1` and the result's at anything, runs to the
    continuation with the operands' as they were and the result's at `out2 x0 x1`. -/
theorem sound_kernel (c : Dev nD) (E : Set ℕ) (arg0 : Memref sig .tc .vmem S10000x128 .f32) (harg0 : arg0.IsWhole)
    (arg1 : Memref sig .tc .vmem S128x128 .f32) (harg1 : arg1.IsWhole) (arg2 : Memref sig .tc .vmem S10000x128 .bf16) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2 x0 x1)) -∗ K ⟨⟩))
      ⊢ wp frame (wpE (defs₀ (F := F)) Variants.none c none) E (cc0__support_body arg0 harg0 arg1 harg1 arg2 harg2) K := by
  simp only [cc0__support_body_eq_skeleton]; unfold cc0__support_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data of the region on core `c`: the arrays as the region finds them; after the body each operand's
    buffer at its array and the result's at the narrowed product; the invariant the scoped buffers the region does not
    stage and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out2 (iblk V c 0 t) (iblk V c 1 t) := by dsimp only [dat]

theorem before_0 (c : Dev nD) (t : Fin cfg0.N) (d) : (dat V c).before 0 t d = iblk V c 0 t :=
  before_x_of V (dat V c) (A_eq V c 0) (after_0 V c) t d
theorem before_1 (c : Dev nD) (t : Fin cfg0.N) (d) : (dat V c).before 1 t d = iblk V c 1 t :=
  before_w_of V (dat V c) (A_eq V c 1) (after_1 V c) t d

/-! ## The body obligation -/

/-- What the body is called with at the point, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at the point: the operands' buffers hold their arrays, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W0, bigSep_W0]
  exact sound_body V c t

end Cert.Kernel.Support

end
-- ==== Proof.Bits.SpmmRegion.lean ====
/-
  Region 1 of the program: the product of the [10000, 10000] adjacency with the intermediate [10000, 128] array, 400 rows
  of the result at each of 25 grid points.  Stated at a parameter `V`, the contents of the core's buffers when the
  region is entered, and at any float instance `F`.

  The adjacency reaches the body through TWO windows of 200 rows each: at point `t` the first holds rows
  `400 t .. 400 t + 199` (block `2 t`) and the second rows `400 t + 200 .. 400 t + 399` (block `2 t + 1`).  A third
  window holds the whole intermediate array at every point.  All three are only read, so after the body their staging
  buffers hold what they held.  The result window's staging buffer of 400 rows is written by two stores of 200 rows,
  the product of the first adjacency block with the intermediate array above that of the second; together they tile
  the buffer, so it holds those two products whatever it held before.  From these the body obligation of the pipeline
  follows at every point.

  Because the two adjacency windows read one array, the core's hold on that array is dealt between them, a half each;
  the intermediate array and the result are held whole.
-/
import proofs.«160435_g60198261620747_cont_9to1c4b_559_6_alg».proof.Proof.Gen.Kernel.Launch
import proofs.«160435_g60198261620747_cont_9to1c4b_559_6_alg».proof.Proof.Gen.Kernel.Skeleton
import proofs.«160435_g60198261620747_cont_9to1c4b_559_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Spmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first adjacency window's staging buffer holds its block at every point, for any proof data over `V` whose
    body leaves it in place. -/
theorem before_a0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second adjacency window's, likewise. -/
theorem before_a1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The intermediate array's window is fetched at the first point only; at every point its staging buffer holds the
    whole array, since its block never moves. -/
theorem before_s_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- An adjacency block, whole. -/
abbrev rA : Rect S200x10000 := Rect.unit (s := S200x10000) ![0, 0] S200x10000.size inb_S200x10000_S200x10000_0_0
/-- The intermediate array, whole. -/
abbrev rS : Rect S10000x128 := Rect.unit (s := S10000x128) ![0, 0] S10000x128.size inb_S10000x128_S10000x128_0_0
/-- Rows 0 to 199 of the result block. -/
abbrev rLo : Rect S400x128 := Rect.unit (s := S400x128) ![0, 0] S200x128.size inb_S400x128_S200x128_0_0
/-- Rows 200 to 399 of the result block. -/
abbrev rHi : Rect S400x128 := Rect.unit (s := S400x128) ![200, 0] S200x128.size inb_S400x128_S200x128_200_0

/-! ## What the body leaves in the result's staging buffer -/

/-- The result's staging buffer after the body, the later store first: rows 200 to 399 the product of the second
    adjacency block with the intermediate array, rows 0 to 199 that of the first. -/
def out3 (a0 a1 : Vec F S200x10000 .f32) (s : Vec F S10000x128 .bf16) : Vec F S400x128 .f32 :=
  View.canon [⟨rHi, k1_pay2 (View.ld a1 rA) (View.ld s rS)⟩, ⟨rLo, k1_pay1 (View.ld a0 rA) (View.ld s rS)⟩]

/-- The two stores tile the buffer, so they cover it. -/
theorem cover3 (p1 p0 : Vec F S200x128 .f32) (y : S400x128.Idx) :
    ∃ pc ∈ ([⟨rHi, p1⟩, ⟨rLo, p0⟩] : List (View.Piece (Elt F) S400x128 .f32)), y ∈ pc.1.set :=
  View.cover_of_tiled [⟨rHi, p1⟩, ⟨rLo, p0⟩] S200x128.size (by rfl) y

/-! ## The body's triple -/

set_option maxHeartbeats 1000000 in
/-- The body on whole staging buffers, the three operands' at `a0`, `a1`, `s` and the result's at anything, runs to
    the continuation with the operands' as they were and the result's at `out3 a0 a1 s`. -/
theorem sound_kernel (c : Dev nD) (E : Set ℕ) (i : grid1.Coords)
    (arg1 : Memref sig .tc .vmem S200x10000 .f32) (harg1 : arg1.IsWhole) (arg2 : Memref sig .tc .vmem S200x10000 .f32) (harg2 : arg2.IsWhole)
    (arg3 : Memref sig .tc .vmem S10000x128 .bf16) (harg3 : arg3.IsWhole) (arg4 : Memref sig .tc .vmem S400x128 .f32) (harg4 : arg4.IsWhole)
    (a0 a1 : Vec F S200x10000 .f32) (s : Vec F S10000x128 .bf16) (K : PUnit → sProp 𝕄) :
    iprop(owns (c : Thread nD τ) arg1 fullShare a0 ∗ owns (c : Thread nD τ) arg2 fullShare a1 ∗ owns (c : Thread nD τ) arg3 fullShare s
        ∗ (∃ d, owns (c : Thread nD τ) arg4 fullShare d)
        ∗ (iprop(owns (c : Thread nD τ) arg1 fullShare a0 ∗ owns (c : Thread nD τ) arg2 fullShare a1 ∗ owns (c : Thread nD τ) arg3 fullShare s
            ∗ owns (c : Thread nD τ) arg4 fullShare (out3 a0 a1 s)) -∗ K ⟨⟩))
      ⊢ wp frame (wpE (defs₀ (F := F)) Variants.none c none) E (cc1__spmm_body i arg1 harg1 arg2 harg2 arg3 harg3 arg4 harg4) K := by
  simp only [cc1__spmm_body_eq_skeleton]; unfold cc1__spmm_body_skel
  unfold owns
  iintro ⟨⟨%f1, %hf1, H1⟩, ⟨%f2, %hf2, H2⟩, ⟨%f3, %hf3, H3⟩, ⟨%d4, %f4, -, H4⟩, Hk⟩
  subst hf1
  subst hf2
  subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3 _ _)

/-! ## The pipeline's proof data -/

/-- The proof data of the region on core `c`: the arrays as the region finds them; after the body each operand's
    buffer at its block and the result's at the two products; the invariant the scoped buffers the region does not stage
    and the generator register, untouched; nothing owed; the adjacency held a half by each of its windows, the
    intermediate array whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec1 c
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) :
    (dat V c).after 3 t = out3 (iblk V c 0 t) (iblk V c 1 t) (iblk V c 2 t) := by dsimp only [dat]

theorem before_0 (c : Dev nD) (t : Fin cfg1.N) (d) : (dat V c).before 0 t d = iblk V c 0 t :=
  before_a0_of V (dat V c) (A_eq V c 0) (after_0 V c) t d
theorem before_1 (c : Dev nD) (t : Fin cfg1.N) (d) : (dat V c).before 1 t d = iblk V c 1 t :=
  before_a1_of V (dat V c) (A_eq V c 1) (after_1 V c) t d
theorem before_2 (c : Dev nD) (t : Fin cfg1.N) (d) : (dat V c).before 2 t d = iblk V c 2 t :=
  before_s_of V (dat V c) (A_eq V c 2) (after_2 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the operands' buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dat (F := F) V c) (defs₀ (F := F)) Variants.none () Set.univ := fun t => by
  rw [bigSep_W1, bigSep_W1]
  exact sound_body V c t

end Cert.Kernel.Spmm

end
-- ==== Proof.Bits.TwoRegions.lean ====
/-
  The whole program at any float instance `F`: its two regions one after the other, from the launch to the return.

  Between the regions the core holds every unscoped buffer whole.  At launch they hold the memory `m`.  Region 0 reads
  the features and the weights and leaves in the intermediate array what its one point writes back; every other buffer
  is as launched.  Region 1 reads the adjacency (through two windows, a half of the hold each) and the intermediate array
  and leaves in the result array what its 25 points write back; every other buffer is as region 0 left it.  So at the
  return the three argument arrays hold what they held at launch and the result array holds the second region's
  write-backs.  This module names those contents; that every execution reaches them is `run_main`, in the module
  built over this one.
-/
import proofs.«160435_g60198261620747_cont_9to1c4b_559_6_alg».proof.Proof.Bits.SupportRegion
import proofs.«160435_g60198261620747_cont_9to1c4b_559_6_alg».proof.Proof.Bits.SpmmRegion

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- What region 0 leaves in the intermediate array: its one write-back. -/
def mid (c : Dev nD) : Buf (Elt F) ((c : Thread nD τ).loc main_v0) := (Support.dat (V0 m) c).arrAt 2 cfg0.N

/-- Core `c`'s buffers between the regions: as launched, but the intermediate array. -/
def W1 (c : Dev nD) : Valuation τ sig (Elt F) := Function.update (W0 m c) (Proc.devRef .tc main_v0) (mid m c)
abbrev V1 : (c : Dev nD) → (b : Ref sig .tc) → Buf (Elt F) ((c : Thread nD τ).loc b) := fun c b => W1 m c b

/-- What region 1 leaves in the result array: its 25 write-backs. -/
def res (c : Dev nD) : Buf (Elt F) ((c : Thread nD τ).loc main_v1) := (Spmm.dat (V1 m) c).arrAt 3 cfg1.N

/-- Core `c`'s buffers at the return: as between the regions, but the result array. -/
def W2 (c : Dev nD) : Valuation τ sig (Elt F) := Function.update (W1 m c) (Proc.devRef .tc main_v1) (res m c)
abbrev V2 : (c : Dev nD) → (b : Ref sig .tc) → Buf (Elt F) ((c : Thread nD τ).loc b) := fun c b => W2 m c b

theorem W1_v0 (c : Dev nD) : W1 m c (Proc.devRef .tc main_v0) = mid m c := by
  unfold W1; exact Function.update_self _ _ _
theorem W1_of_ne (c : Dev nD) (b : Ref sig .tc) (hb : b ≠ main_v0) : W1 m c (Proc.devRef .tc b) = W0 m c (Proc.devRef .tc b) := by
  unfold W1; exact Function.update_of_ne (StableHlo.devRef_ne_of_ne hb) _ _
theorem W2_v1 (c : Dev nD) : W2 m c (Proc.devRef .tc main_v1) = res m c := by
  unfold W2; exact Function.update_self _ _ _
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) _ _

/-- The arguments reach the return as launched: neither region writes one. -/
theorem W2_arg0 (c : Dev nD) : W2 m c (Proc.devRef .tc main_arg0) = m ((c : Thread nD τ).loc main_arg0) :=
  (W2_of_ne m c main_arg0 (by decide)).trans ((W1_of_ne m c main_arg0 (by decide)).trans rfl)
theorem W2_arg1 (c : Dev nD) : W2 m c (Proc.devRef .tc main_arg1) = m ((c : Thread nD τ).loc main_arg1) :=
  (W2_of_ne m c main_arg1 (by decide)).trans ((W1_of_ne m c main_arg1 (by decide)).trans rfl)
theorem W2_arg2 (c : Dev nD) : W2 m c (Proc.devRef .tc main_arg2) = m ((c : Thread nD τ).loc main_arg2) :=
  (W2_of_ne m c main_arg2 (by decide)).trans ((W1_of_ne m c main_arg2 (by decide)).trans rfl)

end Cert.Kernel.Run

end
-- ==== Proof.Bits.SpmmArrays.lean ====
/-
  Region 1's hold on its arrays.  The region's four windows stand on THREE buffers: the adjacency (read through two
  windows), the intermediate array and the result.  The core holds each buffer whole; the pipeline wants each WINDOW's
  array at that window's share.  So on entry the adjacency's whole hold is dealt, a half to each of its two windows, and
  on exit the two halves — both windows only read, so both still see the contents found at entry — are put back
  together; the intermediate array and the result pass at the full share.
-/
import proofs.«160435_g60198261620747_cont_9to1c4b_559_6_alg».proof.Proof.Bits.SpmmRegion

set_option maxRecDepth 16384

noncomputable section

namespace Cert.Kernel.Spmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three buffers behind the four windows, each whole at contents `U`. -/
theorem arrBufs_eq (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_arg1) ↦{fullShare} U main_arg1) ∗ (((c : Thread nD τ).loc main_v0) ↦{fullShare} U main_v0)
          ∗ (((c : Thread nD τ).loc main_v1) ↦{fullShare} U main_v1)) := by
  unfold Pipeline.arrBufs
  exact bigSep_eq_bigSepL_of_eq [main_arg1, main_v0, main_v1] (by decide) (by decide) _

/-- The windows' arrays at contents `G`, window by window, each at its share. -/
theorem arrays_eq (c : Dev nD) (G : (w : Fin cfg1.W) → Buf (Elt F) ((cfg1.win w).arr.view.loc (c : Thread nD τ))) :
    ((dat V c).arrays G : sProp 𝕄)
      = iprop((((c : Thread nD τ).loc main_arg1) ↦{fullShare.left} G 0) ∗ (((c : Thread nD τ).loc main_arg1) ↦{fullShare.right} G 1)
          ∗ (((c : Thread nD τ).loc main_v0) ↦{fullShare} G 2) ∗ (((c : Thread nD τ).loc main_v1) ↦{fullShare} G 3)) := by
  unfold Dat.arrays
  rw [bigSep_W1]
  rw [(arr_whole1 0).set_eq_univ, (arr_whole1 2).set_eq_univ, (arr_whole1 3).set_eq_univ]
  rfl

/-- ENTRY.  The core's unscoped buffers at contents `V c` are the four windows' arrays at the proof data's entry
    contents, each at its share — the adjacency's whole hold dealt into its two halves — and the unscoped rest. -/
theorem entry (c : Dev nD) :
    (unscopedBufs c (V c) : sProp 𝕄)
      ⊢ iprop((dat V c).arrays ((dat V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c)]
  show iprop(Pipeline.arrBufs spec1 c (V c) ∗ Pipeline.unscopedRest spec1 c (V c)) ⊢ _
  rw [arrBufs_eq c (V c), arrays_eq V c]
  iintro ⟨⟨Ha, Hs, Ho⟩, Hrest⟩
  ihave Ha' := (pointsTo_share (PosShare.mem_left_op_right fullShare)).1 $$ Ha
  icases Ha' with ⟨Hl, Hr⟩
  isplitr [Hrest]
  swap; · iexact Hrest
  isplitl [Hl]; · iexact Hl
  isplitl [Hr]; · iexact Hr
  isplitl [Hs]; · iexact Hs
  iexact Ho

/-- EXIT.  The four windows' arrays after the last point — the three read-only windows' as found at entry, the result's
    at what the 25 points wrote back — and the unscoped rest at `V c` are the core's unscoped buffers at any contents
    `V' c` that has the result array at those write-backs and agrees with `V c` elsewhere. -/
theorem exit (V' : (c : Dev nD) → (b : Ref sig .tc) → Buf (Elt F) ((c : Thread nD τ).loc b)) (c : Dev nD)
    (hA : V' c main_arg1 = V c main_arg1) (hS : V' c main_v0 = V c main_v0) (hO : V' c main_v1 = (dat V c).arrAt 3 cfg1.N)
    (hrest : ∀ b, b ∉ Finset.univ.image (Pipeline.arrRef spec1) → V' c b = V c b) :
    iprop((dat V c).arrays ((dat V c).arrAt · cfg1.N) ∗ Pipeline.unscopedRest (Ix := Unit) (Name := ℕ) (U := UR sig nD τ) (Lvl := ℕ) spec1 c (V c))
      ⊢ (unscopedBufs c (V' c) : sProp 𝕄) := by
  rw [Pipeline.unscopedBufs_split₀ cfgs 1 winFacts₀1.arr_unscoped c (V' c)]
  show _ ⊢ iprop(Pipeline.arrBufs spec1 c (V' c) ∗ Pipeline.unscopedRest spec1 c (V' c))
  rw [arrBufs_eq c (V' c), arrays_eq V c]
  rw [show (dat V c).arrAt 0 cfg1.N = V c main_arg1 from ((dat V c).arrAt_in 0 rfl _).trans (A_eq V c 0),
    show (dat V c).arrAt 1 cfg1.N = V c main_arg1 from ((dat V c).arrAt_in 1 rfl _).trans (A_eq V c 1),
    show (dat V c).arrAt 2 cfg1.N = V c main_v0 from ((dat V c).arrAt_in 2 rfl _).trans (A_eq V c 2),
    hA, hS, hO]
  have hR : (Pipeline.unscopedRest (Ix := Unit) (Name := ℕ) (U := UR sig nD τ) (Lvl := ℕ) spec1 c (V c) : sProp 𝕄)
      = Pipeline.unscopedRest spec1 c (V' c) := by
    unfold Pipeline.unscopedRest
    exact bigSep_congr fun b hb => by rw [hrest b (Finset.mem_sdiff.mp hb).2]
  rw [hR]
  iintro ⟨⟨Hl, Hr, Hs, Ho⟩, Hrest⟩
  isplitr [Hrest]
  swap; · iexact Hrest
  isplitl [Hl Hr]
  · iapply (pointsTo_share (PosShare.mem_left_op_right fullShare)).2
    isplitl [Hl]; · iexact Hl
    iexact Hr
  isplitl [Hs]; · iexact Hs
  iexact Ho

end Cert.Kernel.Spmm

end
-- ==== Proof.Bits.MainRun.lean ====
/-
  The program's run at any float instance `F`: every weakly fair execution from a memory `m` with zero counters
  terminates without a fault, the three argument arrays ending as launched and the result array holding what the second
  region's 25 points wrote back (`Run.res m c`).

  Between the two regions the core holds every unscoped buffer whole, beside the generator register at some state and
  nothing owed.  Each region takes its windows' arrays out of those buffers on entry and puts them back on exit at the
  contents it leaves: region 0's three arrays are distinct buffers, each held whole; region 1's adjacency is read through
  two windows and its hold is dealt between them and rejoined.  The generator register rides through each region's
  invariant untouched; neither kernel has a semaphore of its own, and neither owes anything.
-/
import proofs.«160435_g60198261620747_cont_9to1c4b_559_6_alg».proof.Proof.Bits.TwoRegions
import proofs.«160435_g60198261620747_cont_9to1c4b_559_6_alg».proof.Proof.Bits.SpmmArrays

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Support.dat (V0 m) c
  | ⟨1, _⟩ => fun c => Spmm.dat (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the return's contents, the register at some state. -/
abbrev Tₙ (c : Dev nD) : sProp 𝕄 := iprop(StableHlo.held (c : Thread nD τ) (Pipeline.ucRefs τ sig) (W2 m c) ∗ ∃ r, prngReg c r)

/-! ## Region 0's arrays at its exit -/

theorem hF0 (c : Dev nD) (w : Fin cfg0.W) : (Support.dat (V0 m) c).arrAt w cfg0.N = V1 m c (Pipeline.arrRef spec0 w) :=
  match w with
  | ⟨0, _⟩ => (((Support.dat (V0 m) c).arrAt_in 0 rfl _).trans (Support.A_eq (V0 m) c 0)).trans (W1_of_ne m c main_arg0 (by decide)).symm
  | ⟨1, _⟩ => (((Support.dat (V0 m) c).arrAt_in 1 rfl _).trans (Support.A_eq (V0 m) c 1)).trans (W1_of_ne m c main_arg2 (by decide)).symm
  | ⟨2, _⟩ => (W1_v0 m c).symm
theorem hrest0 (c : Dev nD) : ∀ b, b ∉ Finset.univ.image (Pipeline.arrRef spec0) → V1 m c b = V0 m c b :=
  fun b hb => W1_of_ne m c b fun e => hb (Finset.mem_image.mpr ⟨2, Finset.mem_univ _, e.symm⟩)

/-! ## Region 1's buffers at its exit -/

theorem hrest1 (c : Dev nD) : ∀ b, b ∉ Finset.univ.image (Pipeline.arrRef spec1) → V2 m c b = V1 m c b :=
  fun b hb => W2_of_ne m c b fun e => hb (Finset.mem_image.mpr ⟨3, Finset.mem_univ _, e.symm⟩)

/-! ## The regions as segments -/

set_option backward.isDefEq.respectTransparency.types false in
/-- REGION 0 over the thread state: entered from every unscoped buffer at the launch contents, left with the
    intermediate array at its one write-back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Support.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer as region 0 left them, left with the result
    array at its 25 write-backs. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Spmm.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit : (unscopedBufs c (V1 m c) : sProp 𝕄)
        ⊢ iprop((pdats m 1 c).arrays ((pdats m 1 c).arrAt · 0) ∗ Pipeline.unscopedRest (Ix := Unit) (Name := ℕ) (U := UR sig nD τ) (Lvl := ℕ) spec1 c (V1 m c)) :=
      Spmm.entry (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (V1 m c))
        ⊢ (unscopedBufs c (V2 m c) : sProp 𝕄) :=
      Spmm.exit (V1 m) (V2 m) c (W2_of_ne m c main_arg1 (by decide)) (W2_of_ne m c main_v0 (by decide)) (W2_v1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments: a region per pallas_call. -/
abbrev segs : List (Pipeline.Seg (pcfgs (F := F)) adm (pdats m) () defs₀ 𝒱₀ L lv) :=
  [ .region (reg0 m), .region (reg1 m) ]
/-- @main is the run of the segments. -/
theorem main_run (c : Dev nD) : main (F := F) c = Pipeline.Seg.run (segs m) := (main_chain c).trans (by chain_rfl)

set_option backward.isDefEq.respectTransparency.types false in
/-- THE RUN: from any memory with zero counters, every weakly fair execution of @main terminates, nothing faulting, the
    result array ending at `res m c` and the three argument arrays as launched. -/
theorem run_main : θ_run defs (onTc (τ := τ) (main (F := F))) ⟨m, fun _ => 0, ρ⟩ (fun r => ∀ c : Dev nD,
      r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_v1 m c),
       (h c _ (mem_uc main_arg0 (by decide))).trans (W2_arg0 m c),
       (h c _ (mem_uc main_arg1 (by decide))).trans (W2_arg1 m c),
       (h c _ (mem_uc main_arg2 (by decide))).trans (W2_arg2 m c)⟩)

end Cert.Kernel.Run

end
-- ==== Proof.Ideal.SupportRegion.lean ====
/-
  Region 0 of the program: the product `x · W` of the [10000, 128] features with the [128, 128] weights, computed in one
  step on whole arrays and stored narrowed to bf16 into the intermediate array.  Stated at a parameter `V`, the contents
  of the core's buffers when the region is entered, and at any float instance `F`.

  The region has no grid: each of its three windows is its whole array and there is a single point.  The two operand
  windows are only read, so after the body their staging buffers still hold the operands; the result window's staging
  buffer is overwritten whole by the one store, so it holds the narrowed product of the two operands whatever it held
  before.  From these the body obligation of the pipeline follows at that point.
-/
import proofs.«160435_g60198261620747_cont_9to1c4b_559_6_alg».proof.Proof.Gen.KernelIdeal.Launch
import proofs.«160435_g60198261620747_cont_9to1c4b_559_6_alg».proof.Proof.Gen.KernelIdeal.Skeleton
import proofs.«160435_g60198261620747_cont_9to1c4b_559_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Support

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at the point: its whole array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' staging buffer holds the features when the body runs, for any proof data over `V` whose body leaves
    them in place. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weights' staging buffer holds the weights when the body runs, likewise. -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each is the whole of its buffer -/

abbrev rX : Rect S10000x128 := Rect.unit (s := S10000x128) ![0, 0] S10000x128.size inb_S10000x128_S10000x128_0_0
abbrev rW : Rect S128x128 := Rect.unit (s := S128x128) ![0, 0] S128x128.size inb_S128x128_S128x128_0_0

/-! ## What the body leaves in the result's staging buffer -/

/-- The result's staging buffer after the body: the narrowed product of the two operands, written over all of it. -/
def out2 (x0 : Vec F S10000x128 .f32) (x1 : Vec F S128x128 .f32) : Vec F S10000x128 .bf16 :=
  View.canon [⟨rX, k0_pay1 (View.ld x0 rX) (View.ld x1 rW)⟩]

/-- The one store covers the buffer. -/
theorem cover2 (p0 : Vec F S10000x128 .bf16) (y : S10000x128.Idx) :
    ∃ pc ∈ ([⟨rX, p0⟩] : List (View.Piece (Elt F) S10000x128 .bf16)), y ∈ pc.1.set :=
  View.cover_of_tiled [⟨rX, p0⟩] S10000x128.size (by rfl) y

/-! ## The body's triple -/

set_option maxHeartbeats 1000000 in
/-- The body on whole staging buffers, the operands' at `x0` and `x1` and the result's at anything, runs to the
    continuation with the operands' as they were and the result's at `out2 x0 x1`. -/
theorem sound_kernel (c : Dev nD) (E : Set ℕ) (arg0 : Memref sig .tc .vmem S10000x128 .f32) (harg0 : arg0.IsWhole)
    (arg1 : Memref sig .tc .vmem S128x128 .f32) (harg1 : arg1.IsWhole) (arg2 : Memref sig .tc .vmem S10000x128 .bf16) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2 x0 x1)) -∗ K ⟨⟩))
      ⊢ wp frame (wpE (defs₀ (F := F)) Variants.none c none) E (cc0__support_body arg0 harg0 arg1 harg1 arg2 harg2) K := by
  simp only [cc0__support_body_eq_skeleton]; unfold cc0__support_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data of the region on core `c`: the arrays as the region finds them; after the body each operand's
    buffer at its array and the result's at the narrowed product; the invariant the scoped buffers the region does not
    stage and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out2 (iblk V c 0 t) (iblk V c 1 t) := by dsimp only [dat]

theorem before_0 (c : Dev nD) (t : Fin cfg0.N) (d) : (dat V c).before 0 t d = iblk V c 0 t :=
  before_x_of V (dat V c) (A_eq V c 0) (after_0 V c) t d
theorem before_1 (c : Dev nD) (t : Fin cfg0.N) (d) : (dat V c).before 1 t d = iblk V c 1 t :=
  before_w_of V (dat V c) (A_eq V c 1) (after_1 V c) t d

/-! ## The body obligation -/

/-- What the body is called with at the point, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at the point: the operands' buffers hold their arrays, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.Support

end
-- ==== Proof.Ideal.SpmmRegion.lean ====
/-
  Region 1 of the program: the product of the [10000, 10000] adjacency with the intermediate [10000, 128] array, 400 rows
  of the result at each of 25 grid points.  Stated at a parameter `V`, the contents of the core's buffers when the
  region is entered, and at any float instance `F`.

  The adjacency reaches the body through TWO windows of 200 rows each: at point `t` the first holds rows
  `400 t .. 400 t + 199` (block `2 t`) and the second rows `400 t + 200 .. 400 t + 399` (block `2 t + 1`).  A third
  window holds the whole intermediate array at every point.  All three are only read, so after the body their staging
  buffers hold what they held.  The result window's staging buffer of 400 rows is written by two stores of 200 rows,
  the product of the first adjacency block with the intermediate array above that of the second; together they tile
  the buffer, so it holds those two products whatever it held before.  From these the body obligation of the pipeline
  follows at every point.

  Because the two adjacency windows read one array, the core's hold on that array is dealt between them, a half each;
  the intermediate array and the result are held whole.
-/
import proofs.«160435_g60198261620747_cont_9to1c4b_559_6_alg».proof.Proof.Gen.KernelIdeal.Launch
import proofs.«160435_g60198261620747_cont_9to1c4b_559_6_alg».proof.Proof.Gen.KernelIdeal.Skeleton
import proofs.«160435_g60198261620747_cont_9to1c4b_559_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Spmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first adjacency window's staging buffer holds its block at every point, for any proof data over `V` whose
    body leaves it in place. -/
theorem before_a0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second adjacency window's, likewise. -/
theorem before_a1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The intermediate array's window is fetched at the first point only; at every point its staging buffer holds the
    whole array, since its block never moves. -/
theorem before_s_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- An adjacency block, whole. -/
abbrev rA : Rect S200x10000 := Rect.unit (s := S200x10000) ![0, 0] S200x10000.size inb_S200x10000_S200x10000_0_0
/-- The intermediate array, whole. -/
abbrev rS : Rect S10000x128 := Rect.unit (s := S10000x128) ![0, 0] S10000x128.size inb_S10000x128_S10000x128_0_0
/-- Rows 0 to 199 of the result block. -/
abbrev rLo : Rect S400x128 := Rect.unit (s := S400x128) ![0, 0] S200x128.size inb_S400x128_S200x128_0_0
/-- Rows 200 to 399 of the result block. -/
abbrev rHi : Rect S400x128 := Rect.unit (s := S400x128) ![200, 0] S200x128.size inb_S400x128_S200x128_200_0

/-! ## What the body leaves in the result's staging buffer -/

/-- The result's staging buffer after the body, the later store first: rows 200 to 399 the product of the second
    adjacency block with the intermediate array, rows 0 to 199 that of the first. -/
def out3 (a0 a1 : Vec F S200x10000 .f32) (s : Vec F S10000x128 .bf16) : Vec F S400x128 .f32 :=
  View.canon [⟨rHi, k1_pay2 (View.ld a1 rA) (View.ld s rS)⟩, ⟨rLo, k1_pay1 (View.ld a0 rA) (View.ld s rS)⟩]

/-- The two stores tile the buffer, so they cover it. -/
theorem cover3 (p1 p0 : Vec F S200x128 .f32) (y : S400x128.Idx) :
    ∃ pc ∈ ([⟨rHi, p1⟩, ⟨rLo, p0⟩] : List (View.Piece (Elt F) S400x128 .f32)), y ∈ pc.1.set :=
  View.cover_of_tiled [⟨rHi, p1⟩, ⟨rLo, p0⟩] S200x128.size (by rfl) y

/-! ## The body's triple -/

set_option maxHeartbeats 1000000 in
/-- The body on whole staging buffers, the three operands' at `a0`, `a1`, `s` and the result's at anything, runs to
    the continuation with the operands' as they were and the result's at `out3 a0 a1 s`. -/
theorem sound_kernel (c : Dev nD) (E : Set ℕ) (i : grid1.Coords)
    (arg1 : Memref sig .tc .vmem S200x10000 .f32) (harg1 : arg1.IsWhole) (arg2 : Memref sig .tc .vmem S200x10000 .f32) (harg2 : arg2.IsWhole)
    (arg3 : Memref sig .tc .vmem S10000x128 .bf16) (harg3 : arg3.IsWhole) (arg4 : Memref sig .tc .vmem S400x128 .f32) (harg4 : arg4.IsWhole)
    (a0 a1 : Vec F S200x10000 .f32) (s : Vec F S10000x128 .bf16) (K : PUnit → sProp 𝕄) :
    iprop(owns (c : Thread nD τ) arg1 fullShare a0 ∗ owns (c : Thread nD τ) arg2 fullShare a1 ∗ owns (c : Thread nD τ) arg3 fullShare s
        ∗ (∃ d, owns (c : Thread nD τ) arg4 fullShare d)
        ∗ (iprop(owns (c : Thread nD τ) arg1 fullShare a0 ∗ owns (c : Thread nD τ) arg2 fullShare a1 ∗ owns (c : Thread nD τ) arg3 fullShare s
            ∗ owns (c : Thread nD τ) arg4 fullShare (out3 a0 a1 s)) -∗ K ⟨⟩))
      ⊢ wp frame (wpE (defs₀ (F := F)) Variants.none c none) E (cc1__spmm_body i arg1 harg1 arg2 harg2 arg3 harg3 arg4 harg4) K := by
  simp only [cc1__spmm_body_eq_skeleton]; unfold cc1__spmm_body_skel
  unfold owns
  iintro ⟨⟨%f1, %hf1, H1⟩, ⟨%f2, %hf2, H2⟩, ⟨%f3, %hf3, H3⟩, ⟨%d4, %f4, -, H4⟩, Hk⟩
  subst hf1
  subst hf2
  subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3 _ _)

/-! ## The pipeline's proof data -/

/-- The proof data of the region on core `c`: the arrays as the region finds them; after the body each operand's
    buffer at its block and the result's at the two products; the invariant the scoped buffers the region does not stage
    and the generator register, untouched; nothing owed; the adjacency held a half by each of its windows, the
    intermediate array whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec1 c
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) :
    (dat V c).after 3 t = out3 (iblk V c 0 t) (iblk V c 1 t) (iblk V c 2 t) := by dsimp only [dat]

theorem before_0 (c : Dev nD) (t : Fin cfg1.N) (d) : (dat V c).before 0 t d = iblk V c 0 t :=
  before_a0_of V (dat V c) (A_eq V c 0) (after_0 V c) t d
theorem before_1 (c : Dev nD) (t : Fin cfg1.N) (d) : (dat V c).before 1 t d = iblk V c 1 t :=
  before_a1_of V (dat V c) (A_eq V c 1) (after_1 V c) t d
theorem before_2 (c : Dev nD) (t : Fin cfg1.N) (d) : (dat V c).before 2 t d = iblk V c 2 t :=
  before_s_of V (dat V c) (A_eq V c 2) (after_2 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the operands' buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dat (F := F) V c) (defs₀ (F := F)) Variants.none () Set.univ := fun t => by
  rw [bigSep_W1, bigSep_W1]
  exact sound_body V c t

end Cert.KernelIdeal.Spmm

end
-- ==== Proof.Ideal.TwoRegions.lean ====
/-
  The whole program at any float instance `F`: its two regions one after the other, from the launch to the return.

  Between the regions the core holds every unscoped buffer whole.  At launch they hold the memory `m`.  Region 0 reads
  the features and the weights and leaves in the intermediate array what its one point writes back; every other buffer
  is as launched.  Region 1 reads the adjacency (through two windows, a half of the hold each) and the intermediate array
  and leaves in the result array what its 25 points write back; every other buffer is as region 0 left it.  So at the
  return the three argument arrays hold what they held at launch and the result array holds the second region's
  write-backs.  This module names those contents; that every execution reaches them is `run_main`, in the module
  built over this one.
-/
import proofs.«160435_g60198261620747_cont_9to1c4b_559_6_alg».proof.Proof.Ideal.SupportRegion
import proofs.«160435_g60198261620747_cont_9to1c4b_559_6_alg».proof.Proof.Ideal.SpmmRegion

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- What region 0 leaves in the intermediate array: its one write-back. -/
def mid (c : Dev nD) : Buf (Elt F) ((c : Thread nD τ).loc main_v0) := (Support.dat (V0 m) c).arrAt 2 cfg0.N

/-- Core `c`'s buffers between the regions: as launched, but the intermediate array. -/
def W1 (c : Dev nD) : Valuation τ sig (Elt F) := Function.update (W0 m c) (Proc.devRef .tc main_v0) (mid m c)
abbrev V1 : (c : Dev nD) → (b : Ref sig .tc) → Buf (Elt F) ((c : Thread nD τ).loc b) := fun c b => W1 m c b

/-- What region 1 leaves in the result array: its 25 write-backs. -/
def res (c : Dev nD) : Buf (Elt F) ((c : Thread nD τ).loc main_v1) := (Spmm.dat (V1 m) c).arrAt 3 cfg1.N

/-- Core `c`'s buffers at the return: as between the regions, but the result array. -/
def W2 (c : Dev nD) : Valuation τ sig (Elt F) := Function.update (W1 m c) (Proc.devRef .tc main_v1) (res m c)
abbrev V2 : (c : Dev nD) → (b : Ref sig .tc) → Buf (Elt F) ((c : Thread nD τ).loc b) := fun c b => W2 m c b

theorem W1_v0 (c : Dev nD) : W1 m c (Proc.devRef .tc main_v0) = mid m c := by
  unfold W1; exact Function.update_self _ _ _
theorem W1_of_ne (c : Dev nD) (b : Ref sig .tc) (hb : b ≠ main_v0) : W1 m c (Proc.devRef .tc b) = W0 m c (Proc.devRef .tc b) := by
  unfold W1; exact Function.update_of_ne (StableHlo.devRef_ne_of_ne hb) _ _
theorem W2_v1 (c : Dev nD) : W2 m c (Proc.devRef .tc main_v1) = res m c := by
  unfold W2; exact Function.update_self _ _ _
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) _ _

/-- The arguments reach the return as launched: neither region writes one. -/
theorem W2_arg0 (c : Dev nD) : W2 m c (Proc.devRef .tc main_arg0) = m ((c : Thread nD τ).loc main_arg0) :=
  (W2_of_ne m c main_arg0 (by decide)).trans ((W1_of_ne m c main_arg0 (by decide)).trans rfl)
theorem W2_arg1 (c : Dev nD) : W2 m c (Proc.devRef .tc main_arg1) = m ((c : Thread nD τ).loc main_arg1) :=
  (W2_of_ne m c main_arg1 (by decide)).trans ((W1_of_ne m c main_arg1 (by decide)).trans rfl)
theorem W2_arg2 (c : Dev nD) : W2 m c (Proc.devRef .tc main_arg2) = m ((c : Thread nD τ).loc main_arg2) :=
  (W2_of_ne m c main_arg2 (by decide)).trans ((W1_of_ne m c main_arg2 (by decide)).trans rfl)

end Cert.KernelIdeal.Run

end
-- ==== Proof.Ideal.SpmmArrays.lean ====
/-
  Region 1's hold on its arrays.  The region's four windows stand on THREE buffers: the adjacency (read through two
  windows), the intermediate array and the result.  The core holds each buffer whole; the pipeline wants each WINDOW's
  array at that window's share.  So on entry the adjacency's whole hold is dealt, a half to each of its two windows, and
  on exit the two halves — both windows only read, so both still see the contents found at entry — are put back
  together; the intermediate array and the result pass at the full share.
-/
import proofs.«160435_g60198261620747_cont_9to1c4b_559_6_alg».proof.Proof.Ideal.SpmmRegion

set_option maxRecDepth 16384

noncomputable section

namespace Cert.KernelIdeal.Spmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three buffers behind the four windows, each whole at contents `U`. -/
theorem arrBufs_eq (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_arg1) ↦{fullShare} U main_arg1) ∗ (((c : Thread nD τ).loc main_v0) ↦{fullShare} U main_v0)
          ∗ (((c : Thread nD τ).loc main_v1) ↦{fullShare} U main_v1)) := by
  unfold Pipeline.arrBufs
  exact bigSep_eq_bigSepL_of_eq [main_arg1, main_v0, main_v1] (by decide) (by decide) _

/-- The windows' arrays at contents `G`, window by window, each at its share. -/
theorem arrays_eq (c : Dev nD) (G : (w : Fin cfg1.W) → Buf (Elt F) ((cfg1.win w).arr.view.loc (c : Thread nD τ))) :
    ((dat V c).arrays G : sProp 𝕄)
      = iprop((((c : Thread nD τ).loc main_arg1) ↦{fullShare.left} G 0) ∗ (((c : Thread nD τ).loc main_arg1) ↦{fullShare.right} G 1)
          ∗ (((c : Thread nD τ).loc main_v0) ↦{fullShare} G 2) ∗ (((c : Thread nD τ).loc main_v1) ↦{fullShare} G 3)) := by
  unfold Dat.arrays
  rw [bigSep_W1]
  rw [(arr_whole1 0).set_eq_univ, (arr_whole1 2).set_eq_univ, (arr_whole1 3).set_eq_univ]
  rfl

/-- ENTRY.  The core's unscoped buffers at contents `V c` are the four windows' arrays at the proof data's entry
    contents, each at its share — the adjacency's whole hold dealt into its two halves — and the unscoped rest. -/
theorem entry (c : Dev nD) :
    (unscopedBufs c (V c) : sProp 𝕄)
      ⊢ iprop((dat V c).arrays ((dat V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c)]
  show iprop(Pipeline.arrBufs spec1 c (V c) ∗ Pipeline.unscopedRest spec1 c (V c)) ⊢ _
  rw [arrBufs_eq c (V c), arrays_eq V c]
  iintro ⟨⟨Ha, Hs, Ho⟩, Hrest⟩
  ihave Ha' := (pointsTo_share (PosShare.mem_left_op_right fullShare)).1 $$ Ha
  icases Ha' with ⟨Hl, Hr⟩
  isplitr [Hrest]
  swap; · iexact Hrest
  isplitl [Hl]; · iexact Hl
  isplitl [Hr]; · iexact Hr
  isplitl [Hs]; · iexact Hs
  iexact Ho

/-- EXIT.  The four windows' arrays after the last point — the three read-only windows' as found at entry, the result's
    at what the 25 points wrote back — and the unscoped rest at `V c` are the core's unscoped buffers at any contents
    `V' c` that has the result array at those write-backs and agrees with `V c` elsewhere. -/
theorem exit (V' : (c : Dev nD) → (b : Ref sig .tc) → Buf (Elt F) ((c : Thread nD τ).loc b)) (c : Dev nD)
    (hA : V' c main_arg1 = V c main_arg1) (hS : V' c main_v0 = V c main_v0) (hO : V' c main_v1 = (dat V c).arrAt 3 cfg1.N)
    (hrest : ∀ b, b ∉ Finset.univ.image (Pipeline.arrRef spec1) → V' c b = V c b) :
    iprop((dat V c).arrays ((dat V c).arrAt · cfg1.N) ∗ Pipeline.unscopedRest (Ix := Unit) (Name := ℕ) (U := UR sig nD τ) (Lvl := ℕ) spec1 c (V c))
      ⊢ (unscopedBufs c (V' c) : sProp 𝕄) := by
  rw [Pipeline.unscopedBufs_split₀ cfgs 1 winFacts₀1.arr_unscoped c (V' c)]
  show _ ⊢ iprop(Pipeline.arrBufs spec1 c (V' c) ∗ Pipeline.unscopedRest spec1 c (V' c))
  rw [arrBufs_eq c (V' c), arrays_eq V c]
  rw [show (dat V c).arrAt 0 cfg1.N = V c main_arg1 from ((dat V c).arrAt_in 0 rfl _).trans (A_eq V c 0),
    show (dat V c).arrAt 1 cfg1.N = V c main_arg1 from ((dat V c).arrAt_in 1 rfl _).trans (A_eq V c 1),
    show (dat V c).arrAt 2 cfg1.N = V c main_v0 from ((dat V c).arrAt_in 2 rfl _).trans (A_eq V c 2),
    hA, hS, hO]
  have hR : (Pipeline.unscopedRest (Ix := Unit) (Name := ℕ) (U := UR sig nD τ) (Lvl := ℕ) spec1 c (V c) : sProp 𝕄)
      = Pipeline.unscopedRest spec1 c (V' c) := by
    unfold Pipeline.unscopedRest
    exact bigSep_congr fun b hb => by rw [hrest b (Finset.mem_sdiff.mp hb).2]
  rw [hR]
  iintro ⟨⟨Hl, Hr, Hs, Ho⟩, Hrest⟩
  isplitr [Hrest]
  swap; · iexact Hrest
  isplitl [Hl Hr]
  · iapply (pointsTo_share (PosShare.mem_left_op_right fullShare)).2
    isplitl [Hl]; · iexact Hl
    iexact Hr
  isplitl [Hs]; · iexact Hs
  iexact Ho

end Cert.KernelIdeal.Spmm

end
-- ==== Proof.Ideal.MainRun.lean ====
/-
  The program's run at any float instance `F`: every weakly fair execution from a memory `m` with zero counters
  terminates without a fault, the three argument arrays ending as launched and the result array holding what the second
  region's 25 points wrote back (`Run.res m c`).

  Between the two regions the core holds every unscoped buffer whole, beside the generator register at some state and
  nothing owed.  Each region takes its windows' arrays out of those buffers on entry and puts them back on exit at the
  contents it leaves: region 0's three arrays are distinct buffers, each held whole; region 1's adjacency is read through
  two windows and its hold is dealt between them and rejoined.  The generator register rides through each region's
  invariant untouched; neither kernel has a semaphore of its own, and neither owes anything.
-/
import proofs.«160435_g60198261620747_cont_9to1c4b_559_6_alg».proof.Proof.Ideal.TwoRegions
import proofs.«160435_g60198261620747_cont_9to1c4b_559_6_alg».proof.Proof.Ideal.SpmmArrays

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Support.dat (V0 m) c
  | ⟨1, _⟩ => fun c => Spmm.dat (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the return's contents, the register at some state. -/
abbrev Tₙ (c : Dev nD) : sProp 𝕄 := iprop(StableHlo.held (c : Thread nD τ) (Pipeline.ucRefs τ sig) (W2 m c) ∗ ∃ r, prngReg c r)

/-! ## Region 0's arrays at its exit -/

theorem hF0 (c : Dev nD) (w : Fin cfg0.W) : (Support.dat (V0 m) c).arrAt w cfg0.N = V1 m c (Pipeline.arrRef spec0 w) :=
  match w with
  | ⟨0, _⟩ => (((Support.dat (V0 m) c).arrAt_in 0 rfl _).trans (Support.A_eq (V0 m) c 0)).trans (W1_of_ne m c main_arg0 (by decide)).symm
  | ⟨1, _⟩ => (((Support.dat (V0 m) c).arrAt_in 1 rfl _).trans (Support.A_eq (V0 m) c 1)).trans (W1_of_ne m c main_arg2 (by decide)).symm
  | ⟨2, _⟩ => (W1_v0 m c).symm
theorem hrest0 (c : Dev nD) : ∀ b, b ∉ Finset.univ.image (Pipeline.arrRef spec0) → V1 m c b = V0 m c b :=
  fun b hb => W1_of_ne m c b fun e => hb (Finset.mem_image.mpr ⟨2, Finset.mem_univ _, e.symm⟩)

/-! ## Region 1's buffers at its exit -/

theorem hrest1 (c : Dev nD) : ∀ b, b ∉ Finset.univ.image (Pipeline.arrRef spec1) → V2 m c b = V1 m c b :=
  fun b hb => W2_of_ne m c b fun e => hb (Finset.mem_image.mpr ⟨3, Finset.mem_univ _, e.symm⟩)

/-! ## The regions as segments -/

set_option backward.isDefEq.respectTransparency.types false in
/-- REGION 0 over the thread state: entered from every unscoped buffer at the launch contents, left with the
    intermediate array at its one write-back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Support.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer as region 0 left them, left with the result
    array at its 25 write-backs. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Spmm.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit : (unscopedBufs c (V1 m c) : sProp 𝕄)
        ⊢ iprop((pdats m 1 c).arrays ((pdats m 1 c).arrAt · 0) ∗ Pipeline.unscopedRest (Ix := Unit) (Name := ℕ) (U := UR sig nD τ) (Lvl := ℕ) spec1 c (V1 m c)) :=
      Spmm.entry (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (V1 m c))
        ⊢ (unscopedBufs c (V2 m c) : sProp 𝕄) :=
      Spmm.exit (V1 m) (V2 m) c (W2_of_ne m c main_arg1 (by decide)) (W2_of_ne m c main_v0 (by decide)) (W2_v1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments: a region per pallas_call. -/
abbrev segs : List (Pipeline.Seg (pcfgs (F := F)) adm (pdats m) () defs₀ 𝒱₀ L lv) :=
  [ .region (reg0 m), .region (reg1 m) ]
/-- @main is the run of the segments. -/
theorem main_run (c : Dev nD) : main (F := F) c = Pipeline.Seg.run (segs m) := (main_chain c).trans (by chain_rfl)

set_option backward.isDefEq.respectTransparency.types false in
/-- THE RUN: from any memory with zero counters, every weakly fair execution of @main terminates, nothing faulting, the
    result array ending at `res m c` and the three argument arrays as launched. -/
theorem run_main : θ_run defs (onTc (τ := τ) (main (F := F))) ⟨m, fun _ => 0, ρ⟩ (fun r => ∀ c : Dev nD,
      r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_v1 m c),
       (h c _ (mem_uc main_arg0 (by decide))).trans (W2_arg0 m c),
       (h c _ (mem_uc main_arg1 (by decide))).trans (W2_arg1 m c),
       (h c _ (mem_uc main_arg2 (by decide))).trans (W2_arg2 m c)⟩)

end Cert.KernelIdeal.Run

end
-- ==== Proof.Ideal.Payloads.lean ====
/-
  The three matrix products the kernel bodies compute, read at one entry at the ideal instance.

  At the ideal instance a narrowing of the float format is the identity and a product into a zero accumulator is the
  plain sum over the contracted index.  So an entry (p, n) of the first region's stored value is the sum over j of
  x(p, j) · w(j, n), and an entry (r, n) of either 200-row product of the second region is the sum over k of
  a(r, k) · s(k, n), a being the 200 × 10000 adjacency block and s the 10000 × 128 intermediate array.
-/
import proofs.«160435_g60198261620747_cont_9to1c4b_559_6_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payloads

open Idealize.ShloMosaic Idealize.ShloMosaic.TcCoe Idealize.SL.Sem
open Cert.KernelIdeal Cert.KernelIdeal.Gen

/-! ## The 10000 × 128 by 128 × 128 product of the first region -/

/-- Axis 0 of the left operand is not contracted: the left index keeps the output's row. -/
theorem support_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- Axis 1 of the left operand is the contracted one: it carries the contraction index. -/
theorem support_lhs_contr (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- Axis 0 of the right operand is the contracted one: it carries the contraction index. -/
theorem support_rhs_contr (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- Axis 1 of the right operand is not contracted: the right index keeps the output's column. -/
theorem support_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into a zero accumulator at entry (p, n): the row p of the left operand against the column n of the
    right one, whatever the two operands' float formats. -/
theorem support_product_apply {φ₁ φ₂ : FTy} (lhs : FVec Ideal S10000x128 φ₁) (rhs : FVec Ideal S128x128 φ₂) (p : Fin 10000) (n : Fin 128) :
    matmul (F := Ideal) dot_S10000x128_S128x128_S10000x128_1_0_0_1_n_n none lhs rhs (constant (F := Ideal) S10000x128 .f32 0x00000000#32) (ValueIdx.ix2 p n)
      = ∑ j : Fin 128, lhs (ValueIdx.ix2 p j) * rhs (ValueIdx.ix2 j n) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun j _ => ?_
  have hj := ValueIdx.contrEquiv1_symm_val dot_S10000x128_S128x128_S10000x128_1_0_0_1_n_n 128 rfl rfl j
  have el : dot_S10000x128_S128x128_S10000x128_1_0_0_1_n_n.lhsIdx (ValueIdx.ix2 p n) ((ValueIdx.contrEquiv1 dot_S10000x128_S128x128_S10000x128_1_0_0_1_n_n 128 rfl rfl).symm j) = ValueIdx.ix2 p j := funext fun a => Fin.ext (by
    match a with
    | ⟨0, _⟩ => exact support_lhs_row _ _
    | ⟨1, _⟩ => exact (support_lhs_contr _ _).trans hj)
  have er : dot_S10000x128_S128x128_S10000x128_1_0_0_1_n_n.rhsIdx (ValueIdx.ix2 p n) ((ValueIdx.contrEquiv1 dot_S10000x128_S128x128_S10000x128_1_0_0_1_n_n 128 rfl rfl).symm j) = ValueIdx.ix2 j n := funext fun a => Fin.ext (by
    match a with
    | ⟨0, _⟩ => exact (support_rhs_contr _ _).trans hj
    | ⟨1, _⟩ => exact support_rhs_col _ _)
  rw [el, er]

/-- Entry (p, n) of the first region's stored value: the row p of x against the column n of w. -/
theorem support_apply (x : Vec Ideal S10000x128 .f32) (w : Vec Ideal S128x128 .f32) (p : Fin 10000) (n : Fin 128) :
    k0_pay1 (F := Ideal) x w (ValueIdx.ix2 p n) = ∑ j : Fin 128, x (ValueIdx.ix2 p j) * w (ValueIdx.ix2 j n) := by
  unfold k0_pay1
  rw [ValueIdx.truncf_apply]
  exact support_product_apply (φ₁ := .f32) (φ₂ := .f32) x w p n

/-! ## The 200 × 10000 by 10000 × 128 products of the second region -/

/-- Axis 0 of the left operand is not contracted: the left index keeps the output's row. -/
theorem spmm_lhs_row (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
/-- Axis 1 of the left operand is the contracted one: it carries the contraction index. -/
theorem spmm_lhs_contr (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
/-- Axis 0 of the right operand is the contracted one: it carries the contraction index. -/
theorem spmm_rhs_contr (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
/-- Axis 1 of the right operand is not contracted: the right index keeps the output's column. -/
theorem spmm_rhs_col (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The product into a zero accumulator at entry (r, n): the row r of the left operand against the column n of the
    right one, whatever the two operands' float formats. -/
theorem spmm_product_apply {φ₁ φ₂ : FTy} (lhs : FVec Ideal S200x10000 φ₁) (rhs : FVec Ideal S10000x128 φ₂) (r : Fin 200) (n : Fin 128) :
    matmul (F := Ideal) dot_S200x10000_S10000x128_S200x128_1_0_0_1_n_n none lhs rhs (constant (F := Ideal) S200x128 .f32 0x00000000#32) (ValueIdx.ix2 r n)
      = ∑ k : Fin 10000, lhs (ValueIdx.ix2 r k) * rhs (ValueIdx.ix2 k n) := by
  simp only [matmul]
  rw [Ideal.matmul_constant_zero_apply, ← Equiv.sum_comp (ValueIdx.contrEquiv1 dot_S200x10000_S10000x128_S200x128_1_0_0_1_n_n 10000 rfl rfl).symm]
  refine Finset.sum_congr rfl fun k _ => ?_
  have hk := ValueIdx.contrEquiv1_symm_val dot_S200x10000_S10000x128_S200x128_1_0_0_1_n_n 10000 rfl rfl k
  have el : dot_S200x10000_S10000x128_S200x128_1_0_0_1_n_n.lhsIdx (ValueIdx.ix2 r n) ((ValueIdx.contrEquiv1 dot_S200x10000_S10000x128_S200x128_1_0_0_1_n_n 10000 rfl rfl).symm k) = ValueIdx.ix2 r k := funext fun a => Fin.ext (by
    match a with
    | ⟨0, _⟩ => exact spmm_lhs_row _ _
    | ⟨1, _⟩ => exact (spmm_lhs_contr _ _).trans hk)
  have er : dot_S200x10000_S10000x128_S200x128_1_0_0_1_n_n.rhsIdx (ValueIdx.ix2 r n) ((ValueIdx.contrEquiv1 dot_S200x10000_S10000x128_S200x128_1_0_0_1_n_n 10000 rfl rfl).symm k) = ValueIdx.ix2 k n := funext fun a => Fin.ext (by
    match a with
    | ⟨0, _⟩ => exact (spmm_rhs_contr _ _).trans hk
    | ⟨1, _⟩ => exact spmm_rhs_col _ _)
  rw [el, er]

/-- Entry (r, n) of the product stored into rows 0 to 199 of the result block. -/
theorem spmm_lo_apply (a : Vec Ideal S200x10000 .f32) (s : Vec Ideal S10000x128 .bf16) (r : Fin 200) (n : Fin 128) :
    k1_pay1 (F := Ideal) a s (ValueIdx.ix2 r n) = ∑ k : Fin 10000, a (ValueIdx.ix2 r k) * s (ValueIdx.ix2 k n) := by
  unfold k1_pay1
  rw [shapeCast_self]
  refine (spmm_product_apply (φ₁ := .bf16) (φ₂ := .bf16) (truncf (F := Ideal) .bf16 a (by decide)) s r n).trans ?_
  exact Finset.sum_congr rfl fun k _ => by rw [ValueIdx.truncf_apply]

/-- Entry (r, n) of the product stored into rows 200 to 399 of the result block. -/
theorem spmm_hi_apply (a : Vec Ideal S200x10000 .f32) (s : Vec Ideal S10000x128 .bf16) (r : Fin 200) (n : Fin 128) :
    k1_pay2 (F := Ideal) a s (ValueIdx.ix2 r n) = ∑ k : Fin 10000, a (ValueIdx.ix2 r k) * s (ValueIdx.ix2 k n) := by
  unfold k1_pay2
  rw [shapeCast_self]
  refine (spmm_product_apply (φ₁ := .bf16) (φ₂ := .bf16) (truncf (F := Ideal) .bf16 a (by decide)) s r n).trans ?_
  exact Finset.sum_congr rfl fun k _ => by rw [ValueIdx.truncf_apply]

end Cert.KernelIdeal.Payloads

end
-- ==== Proof.Ideal.BlockValues.lean ====
/-
  What the two regions leave in their result arrays, as whole-array functions of the launch memory.

  Region 0 has one point whose block is its whole result array, and the body overwrites the whole staging buffer with
  the narrowed product of the features and the weights: so the intermediate array ends holding that product of the
  launch contents of the two arguments (`mid_eq`, at any float instance).

  Region 1 writes back, at point t, rows 400 t to 400 t + 399 of the result.  Rows 400 t + r with r < 200 are the
  product of adjacency block 2 t — rows 200 (2 t) + r = 400 t + r of the adjacency — with the intermediate array; rows
  400 t + 200 + r are the product of block 2 t + 1 — rows 200 (2 t + 1) + r = 400 t + 200 + r — with it.  Either way row
  p of what is written back is row p of the adjacency against the intermediate array, the same whole-array function at
  every point, and the 25 blocks of 400 rows cover the 10000 rows: so at the ideal instance entry (p, n) of the result
  ends as the sum over k of adj(p, k) · mid(k, n) (`res_apply`).
-/
import proofs.«160435_g60198261620747_cont_9to1c4b_559_6_alg».proof.Proof.Ideal.TwoRegions
import proofs.«160435_g60198261620747_cont_9to1c4b_559_6_alg».proof.Proof.Ideal.Payloads
import Idealize.ShloMosaic.Lib.ValueIdx
import Idealize.ShloMosaic.Lib.Pipeline.Value

set_option maxRecDepth 16384

noncomputable section

namespace Cert.KernelIdeal.BlockValues

open Idealize.ShloMosaic Idealize.ShloMosaic.TcCoe Idealize.SL.Sem
open Idealize.ShloMosaic.Pipeline (Dat Cfg Window)
open Idealize.ShloMosaic.ValueIdx
open Cert.KernelIdeal Cert.KernelIdeal.Gen

variable {F : FTy → Type} [FloatOps F]

/-! ## Region 0: one point, whole arrays -/

/-- The zero offsets of a whole-buffer access, as the constant function. -/
private theorem off_zero : (![0, 0] : Fin 2 → Nat) = fun _ => 0 := funext fun a => by fin_cases a <;> rfl

/-- The one store of region 0's body is of the whole buffer and its two loads read whole buffers: the buffer ends
    holding the narrowed product of the two operands. -/
private theorem out2_eq (x0 : Vec F S10000x128 .f32) (x1 : Vec F S128x128 .f32) : Support.out2 x0 x1 = k0_pay1 x0 x1 := by
  unfold Support.out2
  rw [View.canon_unit_zero off_zero]
  simp only [View.ld_unit_zero (S := S10000x128) off_zero, View.ld_unit_zero (S := S128x128) off_zero]

/-- On the grid of no axis every block offset is zero. -/
private theorem off0_0 (t : Fin cfg0.N) : (fun a => win0_0.index t a * main_arg0.ty.shape.size a) = fun _ => 0 :=
  funext fun a => Nat.zero_mul _
private theorem off0_1 (t : Fin cfg0.N) : (fun a => win0_1.index t a * main_arg2.ty.shape.size a) = fun _ => 0 :=
  funext fun a => Nat.zero_mul _
private theorem off0_2 (t : Fin cfg0.N) : (fun a => win0_2.index t a * main_v0.ty.shape.size a) = fun _ => 0 :=
  funext fun a => Nat.zero_mul _

/-- The features' block at the point is the whole array as the region finds it. -/
private theorem iblk0_0 (V : (c : Dev nD) → (b : Ref sig .tc) → Buf (Elt F) ((c : Thread nD τ).loc b)) (c : Dev nD) (t : Fin cfg0.N) :
    (Support.iblk V c 0 t : Vec F S10000x128 .f32) = V c main_arg0 := by
  unfold Support.iblk
  exact Memref.read_access_unit_zero (Elt F) main_arg0 (off0_0 t) (fun a => by rw [congrFun (off0_0 t) a]; simp) (V c main_arg0)

/-- The weights' block at the point is the whole array as the region finds it. -/
private theorem iblk0_1 (V : (c : Dev nD) → (b : Ref sig .tc) → Buf (Elt F) ((c : Thread nD τ).loc b)) (c : Dev nD) (t : Fin cfg0.N) :
    (Support.iblk V c 1 t : Vec F S128x128 .f32) = V c main_arg2 := by
  unfold Support.iblk
  exact Memref.read_access_unit_zero (Elt F) main_arg2 (off0_1 t) (fun a => by rw [congrFun (off0_1 t) a]; simp) (V c main_arg2)

/-- The intermediate array after region 0: the narrowed product of the launch contents of the features and the weights. -/
theorem mid_eq (m : (ℓ : Loc nD τ sig) → Buf (Elt F) ℓ) (c : Dev nD) :
    Run.mid (F := F) m c = k0_pay1 (m ((c : Thread nD τ).loc main_arg0)) (m ((c : Thread nD τ).loc main_arg2)) := by
  unfold Run.mid
  refine (Support.dat (Run.V0 m) c).arrAt_eq_of_cover 2 _ (fun t _ => ?_) (fun i => ?_)
  · show (cfg0.win 2).cut (grid0.coords t) ((Support.dat (Run.V0 m) c).after 2 t) = _
    rw [Support.after_2, out2_eq, iblk0_0, iblk0_1]
    exact (Memref.read_access_unit_zero (Elt F) main_v0 (off0_2 t) (fun a => by rw [congrFun (off0_2 t) a]; simp)
      (k0_pay1 (m ((c : Thread nD τ).loc main_arg0)) (m ((c : Thread nD τ).loc main_arg2)))).symm
  · refine ⟨t0_0, flush0_2 t0_0, ?_⟩
    show i ∈ ((View.whole main_v0).slice (win0_2.rect t0_0)).set
    rw [View.set_slice_whole, Rect.mem_set_unit]
    intro a
    show win0_2.index t0_0 a * win0_2.size a ≤ (i a : Nat) ∧ (i a : Nat) < win0_2.index t0_0 a * win0_2.size a + win0_2.xsize (grid0.coords t0_0) a
    rw [show win0_2.index t0_0 a = 0 from rfl, Nat.zero_mul, Nat.zero_add]
    exact ⟨Nat.zero_le _, (i a).isLt⟩

/-! ## Region 1: 25 points, 400 rows of the result at each -/

/-- The launch adjacency, the intermediate array after region 0 and the result after region 1, at the ideal instance, as plain arrays of extended reals. -/
abbrev adjArr (m : (ℓ : Loc nD τ sig) → Buf (Elt Ideal) ℓ) (c : Dev nD) : S10000x10000.Idx → EReal := m ((c : Thread nD τ).loc main_arg1)
abbrev midArr (m : (ℓ : Loc nD τ sig) → Buf (Elt Ideal) ℓ) (c : Dev nD) : S10000x128.Idx → EReal := Run.mid (F := Ideal) m c
abbrev resArr (m : (ℓ : Loc nD τ sig) → Buf (Elt Ideal) ℓ) (c : Dev nD) : S10000x128.Idx → EReal := Run.res (F := Ideal) m c

/-- Row `i 0` of a 10000-column matrix against column `i 1` of a 10000-row one: the whole product as one function
    of the result's index. -/
private def rowsTimes (A : S10000x10000.Idx → EReal) (M : S10000x128.Idx → EReal) : S10000x128.Idx → EReal :=
  fun i => ∑ k : Fin 10000, A (ix2 ⟨(i 0).val, idx2_lt0 i⟩ k) * M (ix2 k ⟨(i 1).val, idx2_lt1 i⟩)

/-! ### What the body leaves in the result's staging buffer, entry by entry -/

/-- Of two stores, an entry the later one misses and the earlier one holds reads the earlier one's payload. -/
private theorem canon_pair_earlier {S : Shape} {e : EltTy} (r1 r0 : Rect S) (w1 : r1.shape.Idx → Elt Ideal e)
    (w0 : r0.shape.Idx → Elt Ideal e) (x : r0.shape.Idx) (h : r0.emb x ∉ r1.set) :
    View.canon [(⟨r1, w1⟩ : View.Piece (Elt Ideal) S e), ⟨r0, w0⟩] (r0.emb x) = w0 x := by
  rw [View.canon_cons_of_not_mem _ _ h, View.canon_cons_emb]

/-- Rows 0 to 199: the first adjacency block against the intermediate array. The later store, of rows 200 to 399,
    misses the entry; the earlier one holds it. -/
private theorem out3_lo (a0 a1 : Vec Ideal S200x10000 .f32) (s : Vec Ideal S10000x128 .bf16) (r : Fin 200) (n : Fin 128) :
    Spmm.out3 a0 a1 s (ix2 (⟨r.val, Nat.lt_of_lt_of_le r.isLt (by decide)⟩ : Fin 400) n)
      = ∑ k : Fin 10000, a0 (ix2 r k) * s (ix2 k n) := by
  unfold Spmm.out3
  have e : (ix2 (⟨r.val, Nat.lt_of_lt_of_le r.isLt (by decide)⟩ : Fin 400) n : S400x128.Idx) = Spmm.rLo.emb (ix2 r n) := by
    funext a; apply Fin.ext
    match a with
    | ⟨0, _⟩ => show r.val = 0 + 1 * r.val; omega
    | ⟨1, _⟩ => show n.val = 0 + 1 * n.val; omega
  have hmiss : Spmm.rLo.emb (ix2 r n) ∉ Spmm.rHi.set := by
    rw [Rect.mem_set_unit]
    intro h
    have h0 : 200 ≤ 0 + 1 * r.val := (h 0).1
    have := r.isLt
    omega
  rw [e]
  refine (canon_pair_earlier Spmm.rHi Spmm.rLo _ _ (ix2 r n) hmiss).trans ?_
  rw [View.ld_unit_zero (S := S200x10000) off_zero, View.ld_unit_zero (S := S10000x128) off_zero]
  exact Payloads.spmm_lo_apply a0 s r n

/-- Rows 200 to 399: the second adjacency block against the intermediate array, by the later store. -/
private theorem out3_hi (a0 a1 : Vec Ideal S200x10000 .f32) (s : Vec Ideal S10000x128 .bf16) (r : Fin 200) (n : Fin 128) :
    Spmm.out3 a0 a1 s (ix2 (⟨r.val + 200, Nat.add_lt_add_right r.isLt 200⟩ : Fin 400) n)
      = ∑ k : Fin 10000, a1 (ix2 r k) * s (ix2 k n) := by
  unfold Spmm.out3
  have e : (ix2 (⟨r.val + 200, Nat.add_lt_add_right r.isLt 200⟩ : Fin 400) n : S400x128.Idx) = Spmm.rHi.emb (ix2 r n) := by
    funext a; apply Fin.ext
    match a with
    | ⟨0, _⟩ => show r.val + 200 = 200 + 1 * r.val; omega
    | ⟨1, _⟩ => show n.val = 0 + 1 * n.val; omega
  rw [e, View.canon_cons_emb,
    View.ld_unit_zero (S := S200x10000) off_zero, View.ld_unit_zero (S := S10000x128) off_zero]
  exact Payloads.spmm_hi_apply a1 s r n

/-- What a point leaves in the result's staging buffer is, entry by entry, the whole-array product at the entry's
    place in the array, once the two adjacency blocks are rows `400 T + r` and `400 T + 200 + r` of the adjacency
    and the third operand is the intermediate array: stated over plain arrays and a plain row offset. -/
private theorem out3_block (a0 a1 : Vec Ideal S200x10000 .f32) (s : Vec Ideal S10000x128 .bf16)
    (A : S10000x10000.Idx → EReal) (M : S10000x128.Idx → EReal) (T : Nat)
    (h0 : ∀ (r : Fin 200) (k p : Fin 10000), p.val = 400 * T + r.val → a0 (ix2 r k) = A (ix2 p k))
    (h1 : ∀ (r : Fin 200) (k p : Fin 10000), p.val = 400 * T + 200 + r.val → a1 (ix2 r k) = A (ix2 p k))
    (hs : ∀ (k : Fin 10000) (n : Fin 128), s (ix2 k n) = M (ix2 k n))
    (y : S400x128.Idx) (i : S10000x128.Idx) (e0 : (i 0).val = 400 * T + (y 0).val) (e1 : (i 1).val = (y 1).val) :
    Spmm.out3 a0 a1 s y = rowsTimes A M i := by
  obtain ⟨r, n, rfl⟩ : ∃ (r : Fin 400) (n : Fin 128), y = ix2 r n := ⟨y 0, y 1, eq_ix2 y⟩
  have en : n = ⟨(i 1).val, idx2_lt1 i⟩ := Fin.ext e1.symm
  have e0' : (i 0).val = 400 * T + r.val := e0
  unfold rowsTimes
  by_cases h : r.val < 200
  · refine (out3_lo a0 a1 s ⟨r.val, h⟩ n).trans (Finset.sum_congr rfl fun k _ => ?_)
    rw [h0 ⟨r.val, h⟩ k ⟨(i 0).val, idx2_lt0 i⟩ e0', hs k n, ← en]
  · obtain ⟨r', rfl⟩ : ∃ r' : Fin 200, r = ⟨r'.val + 200, Nat.add_lt_add_right r'.isLt 200⟩ :=
      ⟨⟨r.val - 200, by have := r.isLt; omega⟩, Fin.ext (by show r.val = r.val - 200 + 200; omega)⟩
    have e0'' : (i 0).val = 400 * T + 200 + r'.val := by
      have : (i 0).val = 400 * T + (r'.val + 200) := e0'
      omega
    refine (out3_hi a0 a1 s r' n).trans (Finset.sum_congr rfl fun k _ => ?_)
    rw [h1 r' k ⟨(i 0).val, idx2_lt0 i⟩ e0'', hs k n, ← en]

/-! ### The blocks of region 1 at a point, read off the arrays -/

/-- The printed index maps, decided over the 25 points: the two adjacency windows are at row blocks `2 t` and
    `2 t + 1`, the intermediate array's window is the whole array, the result's window is at row block `t`. -/
private theorem idx1_0 : ∀ t : Fin cfg1.N, win1_0.index t (0 : Fin 2) = 2 * t.val ∧ win1_0.index t (1 : Fin 2) = 0 :=
  (by decide +kernel : ∀ t : Fin grid1.N, _)
private theorem idx1_1 : ∀ t : Fin cfg1.N, win1_1.index t (0 : Fin 2) = 2 * t.val + 1 ∧ win1_1.index t (1 : Fin 2) = 0 :=
  (by decide +kernel : ∀ t : Fin grid1.N, _)
private theorem idx1_2 : ∀ t : Fin cfg1.N, win1_2.index t (0 : Fin 2) = 0 ∧ win1_2.index t (1 : Fin 2) = 0 :=
  (by decide +kernel : ∀ t : Fin grid1.N, _)
private theorem idx1_3 : ∀ t : Fin cfg1.N, win1_3.index t (0 : Fin 2) = t.val ∧ win1_3.index t (1 : Fin 2) = 0 :=
  (by decide +kernel : ∀ t : Fin grid1.N, _)

/-- Row `r` of the first adjacency window's block at point `t` is row `400 t + r` of the adjacency. -/
private theorem adj_block0 (V : (c : Dev nD) → (b : Ref sig .tc) → Buf (Elt Ideal) ((c : Thread nD τ).loc b)) (c : Dev nD)
    (t : Fin cfg1.N) (r : Fin 200) (k p : Fin 10000) (hp : p.val = 400 * t.val + r.val) :
    (Spmm.iblk V c 0 t : Vec Ideal S200x10000 .f32) (ix2 r k) = (V c main_arg1 : S10000x10000.Idx → EReal) (ix2 p k) := by
  obtain ⟨e0, e1⟩ := idx1_0 t
  unfold Spmm.iblk
  rw [View.read_apply]
  show V c main_arg1 _ = V c main_arg1 _
  congr 1
  funext a; apply Fin.ext
  match a with
  | ⟨0, _⟩ => show win1_0.index t (0 : Fin 2) * 200 + 1 * r.val = p.val; rw [e0, hp]; omega
  | ⟨1, _⟩ => show win1_0.index t (1 : Fin 2) * 10000 + 1 * k.val = k.val; rw [e1]; omega

/-- Row `r` of the second adjacency window's block at point `t` is row `400 t + 200 + r` of the adjacency. -/
private theorem adj_block1 (V : (c : Dev nD) → (b : Ref sig .tc) → Buf (Elt Ideal) ((c : Thread nD τ).loc b)) (c : Dev nD)
    (t : Fin cfg1.N) (r : Fin 200) (k p : Fin 10000) (hp : p.val = 400 * t.val + 200 + r.val) :
    (Spmm.iblk V c 1 t : Vec Ideal S200x10000 .f32) (ix2 r k) = (V c main_arg1 : S10000x10000.Idx → EReal) (ix2 p k) := by
  obtain ⟨e0, e1⟩ := idx1_1 t
  unfold Spmm.iblk
  rw [View.read_apply]
  show V c main_arg1 _ = V c main_arg1 _
  congr 1
  funext a; apply Fin.ext
  match a with
  | ⟨0, _⟩ => show win1_1.index t (0 : Fin 2) * 200 + 1 * r.val = p.val; rw [e0, hp]; omega
  | ⟨1, _⟩ => show win1_1.index t (1 : Fin 2) * 10000 + 1 * k.val = k.val; rw [e1]; omega

/-- The third window's block at any point is the whole intermediate array. -/
private theorem mid_block (V : (c : Dev nD) → (b : Ref sig .tc) → Buf (Elt Ideal) ((c : Thread nD τ).loc b)) (c : Dev nD)
    (t : Fin cfg1.N) (k : Fin 10000) (n : Fin 128) :
    (Spmm.iblk V c 2 t : Vec Ideal S10000x128 .bf16) (ix2 k n) = (V c main_v0 : S10000x128.Idx → EReal) (ix2 k n) := by
  obtain ⟨e0, e1⟩ := idx1_2 t
  unfold Spmm.iblk
  rw [View.read_apply]
  show V c main_v0 _ = V c main_v0 _
  congr 1
  funext a; apply Fin.ext
  match a with
  | ⟨0, _⟩ => show win1_2.index t (0 : Fin 2) * 10000 + 1 * k.val = k.val; rw [e0]; omega
  | ⟨1, _⟩ => show win1_2.index t (1 : Fin 2) * 128 + 1 * n.val = n.val; rw [e1]; omega

/-! ### From the blocks to the array -/

/-- Between the regions the adjacency is as launched and the intermediate array is what region 0 left. -/
private theorem V1_adj (m : (ℓ : Loc nD τ sig) → Buf (Elt Ideal) ℓ) (c : Dev nD) :
    (Run.V1 (F := Ideal) m c main_arg1 : S10000x10000.Idx → EReal) = adjArr m c :=
  Run.W1_of_ne m c main_arg1 (by decide)
private theorem V1_mid (m : (ℓ : Loc nD τ sig) → Buf (Elt Ideal) ℓ) (c : Dev nD) :
    (Run.V1 (F := Ideal) m c main_v0 : S10000x128.Idx → EReal) = midArr m c :=
  Run.W1_v0 m c

/-- What point `t` writes back is block `t` of the whole-array product of the launch adjacency with the intermediate array. -/
private theorem flushed3_eq (m : (ℓ : Loc nD τ sig) → Buf (Elt Ideal) ℓ) (c : Dev nD) (t : Fin cfg1.N) :
    (Spmm.dat (Run.V1 (F := Ideal) m) c).flushed 3 t
      = ((cfg1.win 3).blk t).view.read (Elt Ideal) (rowsTimes (adjArr m c) (midArr m c)) := by
  obtain ⟨e0, e1⟩ := idx1_3 t
  show (cfg1.win 3).cut (grid1.coords t) ((Spmm.dat (Run.V1 (F := Ideal) m) c).after 3 t) = _
  rw [Spmm.after_3]
  funext y
  rw [View.read_apply]
  show Spmm.out3 (Spmm.iblk (Run.V1 (F := Ideal) m) c 0 t) (Spmm.iblk (Run.V1 (F := Ideal) m) c 1 t) (Spmm.iblk (Run.V1 (F := Ideal) m) c 2 t) y
    = rowsTimes (adjArr m c) (midArr m c) (((cfg1.win 3).blk t).view.emb y)
  refine out3_block _ _ _ (adjArr m c) (midArr m c) t.val (fun r k p hp => ?_) (fun r k p hp => ?_) (fun k n => ?_) y _ ?_ ?_
  · exact (adj_block0 (Run.V1 (F := Ideal) m) c t r k p hp).trans (congrFun (V1_adj m c) _)
  · exact (adj_block1 (Run.V1 (F := Ideal) m) c t r k p hp).trans (congrFun (V1_adj m c) _)
  · exact (mid_block (Run.V1 (F := Ideal) m) c t k n).trans (congrFun (V1_mid m c) _)
  · show win1_3.index t (0 : Fin 2) * 400 + 1 * (y 0).val = 400 * t.val + (y 0).val
    rw [e0]; omega
  · show win1_3.index t (1 : Fin 2) * 128 + 1 * (y 1).val = (y 1).val
    rw [e1]; omega

/-- Row `p` of the result lies in the block of point `p / 400`: the 25 blocks cover the array. -/
private theorem cover3 (i : S10000x128.Idx) :
    ∃ t : Fin cfg1.N, (cfg1.win 3).flush t = true ∧ i ∈ ((cfg1.win 3).blk t).view.set := by
  have hi0 : (i 0).val < 10000 := idx2_lt0 i
  have hi1 : (i 1).val < 128 := idx2_lt1 i
  have hN : grid1.N = 25 := N_1
  obtain ⟨t, ht⟩ : ∃ t : Fin cfg1.N, t.val = (i 0).val / 400 :=
    ⟨⟨(i 0).val / 400, by show (i 0).val / 400 < grid1.N; rw [hN]; omega⟩, rfl⟩
  obtain ⟨e0, e1⟩ := idx1_3 t
  refine ⟨t, flush1_3 t, ?_⟩
  show i ∈ ((View.whole main_v1).slice (win1_3.rect t)).set
  rw [View.set_slice_whole, Rect.mem_set_unit]
  intro a
  match a with
  | ⟨0, _⟩ =>
    show win1_3.index t (0 : Fin 2) * 400 ≤ (i 0).val ∧ (i 0).val < win1_3.index t (0 : Fin 2) * 400 + 400
    rw [e0, ht]; omega
  | ⟨1, _⟩ =>
    show win1_3.index t (1 : Fin 2) * 128 ≤ (i 1).val ∧ (i 1).val < win1_3.index t (1 : Fin 2) * 128 + 128
    rw [e1]; omega

/-- So the result array ends holding that product. -/
private theorem res_eq (m : (ℓ : Loc nD τ sig) → Buf (Elt Ideal) ℓ) (c : Dev nD) :
    resArr m c = rowsTimes (adjArr m c) (midArr m c) := by
  show Run.res (F := Ideal) m c = _
  unfold Run.res
  exact (Spmm.dat (Run.V1 (F := Ideal) m) c).arrAt_eq_of_cover 3 _ (fun t _ => flushed3_eq m c t) cover3

/-- The result array after region 1, at the ideal instance, entry by entry: row p of the adjacency against column n of
    the intermediate array. -/
theorem res_apply (m : (ℓ : Loc nD τ sig) → Buf (Elt Ideal) ℓ) (c : Dev nD) (p : Fin 10000) (n : Fin 128) :
    resArr m c (ValueIdx.ix2 p n) = ∑ k : Fin 10000, adjArr m c (ValueIdx.ix2 p k) * midArr m c (ValueIdx.ix2 k n) := by
  rw [res_eq m c]
  rfl

end Cert.KernelIdeal.BlockValues

end
-- ==== Proof.Ideal.ProductAgree.lean ====
/-
  The kernel's result and the reference's are one function of the three arguments, at the ideal instance.

  Entry (p, n) of the reference's result is the sum over k of adj(p, k) times entry (k, n) of its first product, itself
  the sum over j of x(k, j) · w(j, n).  Entry (p, n) of the kernel's result array is the sum over k of adj(p, k) times
  entry (k, n) of the intermediate array, which holds the kernel's first product narrowed to bf16 — the same number at
  the ideal instance, where a change of float format is the identity.  Both sides associate the same way, so no law of
  the extended reals is needed: the two double sums agree term by term.
-/
import proofs.«160435_g60198261620747_cont_9to1c4b_559_6_alg».proof.Proof.Ideal.BlockValues
import proofs.«160435_g60198261620747_cont_9to1c4b_559_6_alg».proof.Proof.Gen.ReferenceIdeal.Read

noncomputable section

namespace Cert.KernelIdeal.Agree

open Idealize.ShloMosaic Idealize.ShloMosaic.TcCoe Idealize.SL.Sem
open Cert.KernelIdeal Cert.KernelIdeal.Gen

/-- The reference's result at entry (p, n), its two host products read as sums over literal coordinates. -/
theorem reference_apply (x : S10000x128.Idx → EReal) (adj : S10000x10000.Idx → EReal) (w : S128x128.Idx → EReal)
    (p : Fin 10000) (n : Fin 128) :
    Cert.ReferenceIdeal.Read.val_main_v1 (F := Ideal) x adj w (ValueIdx.ix2 p n)
      = ∑ k : Fin 10000, adj (ValueIdx.ix2 p k) * ∑ j : Fin 128, x (ValueIdx.ix2 k j) * w (ValueIdx.ix2 j n) := by
  rw [Cert.ReferenceIdeal.Read.val_main_v1_apply]
  refine Finset.sum_congr rfl fun k _ => ?_
  have e1 : Cert.ReferenceIdeal.Read.lidx_main_v1 (ValueIdx.ix2 p n) k = ValueIdx.ix2 p k :=
    funext fun a => Fin.ext (by match a with | ⟨0, _⟩ => rfl | ⟨1, _⟩ => rfl)
  have e2 : Cert.ReferenceIdeal.Read.ridx_main_v1 (ValueIdx.ix2 p n) k = ValueIdx.ix2 k n :=
    funext fun a => Fin.ext (by match a with | ⟨0, _⟩ => rfl | ⟨1, _⟩ => rfl)
  rw [e1, e2, Cert.ReferenceIdeal.Read.val_main_v0_apply]
  refine congrArg (adj (ValueIdx.ix2 p k) * ·) (Finset.sum_congr rfl fun j _ => ?_)
  have e3 : Cert.ReferenceIdeal.Read.lidx_main_v0 (ValueIdx.ix2 k n) j = ValueIdx.ix2 k j :=
    funext fun a => Fin.ext (by match a with | ⟨0, _⟩ => rfl | ⟨1, _⟩ => rfl)
  have e4 : Cert.ReferenceIdeal.Read.ridx_main_v0 (ValueIdx.ix2 k n) j = ValueIdx.ix2 j n :=
    funext fun a => Fin.ext (by match a with | ⟨0, _⟩ => rfl | ⟨1, _⟩ => rfl)
  rw [e3, e4]

/-- The result array after the kernel's two regions is the reference's composed term of the launch contents of the
    three arguments. -/
theorem result_eq (m : (ℓ : Loc nD τ sig) → Buf (Elt Ideal) ℓ) (c : Dev nD) :
    BlockValues.resArr m c
      = Cert.ReferenceIdeal.Read.val_main_v1 (F := Ideal) (m ((c : Thread nD τ).loc main_arg0))
          (m ((c : Thread nD τ).loc main_arg1)) (m ((c : Thread nD τ).loc main_arg2)) := by
  funext i
  obtain ⟨p, n, rfl⟩ : ∃ (p : Fin 10000) (n : Fin 128), i = ValueIdx.ix2 p n := ⟨i 0, i 1, ValueIdx.eq_ix2 i⟩
  rw [BlockValues.res_apply]
  refine (Finset.sum_congr rfl fun k _ => ?_).trans (reference_apply _ _ _ p n).symm
  refine congrArg (BlockValues.adjArr m c (ValueIdx.ix2 p k) * ·) ?_
  show Run.mid (F := Ideal) m c (ValueIdx.ix2 k n) = _
  rw [BlockValues.mid_eq]
  exact Payloads.support_apply _ _ k n

end Cert.KernelIdeal.Agree

end
-- ==== Proof.lean ====
/-
  The certificate of a graph-convolution layer, `out = adj · (x · W)` with a dense [10000, 10000] adjacency, [10000, 128]
  features and [128, 128] weights.

  The kernel runs two regions.  The first forms `x · W` in one step and stores it narrowed to bf16.  The second streams
  the adjacency 400 rows at a time through two windows of 200 rows, multiplies each 200-row block (narrowed to bf16) with
  the stored product, accumulating in f32, and writes the 400 rows of the result.  The reference is the same two
  products on the host.  At the ideal instance a change of float format is the identity and a product into a zero
  accumulator is the plain sum over the contracted index, so both programs compute, entry by entry,
  the sum over k of adj(p, k) times the sum over j of x(k, j) · w(j, n), associated the same way: the claim needs no law
  of the extended reals and never opens its precondition.

  The three frames: each kernel program's run (`Run.run_main`, proved once for any float instance) ends with the three
  arguments as launched; the reference's generated run does too.  The idealization rewrote nothing, so `preserves` is
  `True`.  For `algebraic`, the kernel's run names what the result array ends holding, and `Agree.result_eq` says that
  is the reference's composed term of the same arguments.
-/
import proofs.«160435_g60198261620747_cont_9to1c4b_559_6_alg».proof.Defs
import proofs.«160435_g60198261620747_cont_9to1c4b_559_6_alg».proof.Proof.Gen.Kernel
import proofs.«160435_g60198261620747_cont_9to1c4b_559_6_alg».proof.Proof.Gen.KernelIdeal
import proofs.«160435_g60198261620747_cont_9to1c4b_559_6_alg».proof.Proof.Gen.ReferenceIdeal
import proofs.«160435_g60198261620747_cont_9to1c4b_559_6_alg».proof.Proof.Gen.Pre_finite_inputs
import proofs.«160435_g60198261620747_cont_9to1c4b_559_6_alg».proof.Proof.Gen.ReferenceIdeal.Run
import proofs.«160435_g60198261620747_cont_9to1c4b_559_6_alg».proof.Proof.Bits.MainRun
import proofs.«160435_g60198261620747_cont_9to1c4b_559_6_alg».proof.Proof.Ideal.MainRun
import proofs.«160435_g60198261620747_cont_9to1c4b_559_6_alg».proof.Proof.Ideal.ProductAgree
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ =>
  (θ_run Cert.Kernel.defs _ _).mono (fun _ h c => (h c).2) (Cert.Kernel.Run.run_main (F := Bits) m ρ)

/-- So does the idealized kernel. -/
theorem frame_kernelIdeal : Cert.frame_KernelIdeal := fun m ρ _ =>
  (θ_run Cert.KernelIdeal.defs _ _).mono (fun _ h c => (h c).2) (Cert.KernelIdeal.Run.run_main (F := Ideal) m ρ)

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, the idealized kernel's result array and the reference's end equal:
    the kernel's at what its second region wrote back, the reference's at its composed term, one function of the
    arguments. -/
theorem algebraic : Cert.algebraic_KernelIdeal_ReferenceIdeal := by
  intro m ρ m' ρ' _ hagree
  refine ⟨fun c => Cert.KernelIdeal.Run.res (F := Ideal) m c, Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.KernelIdeal.Agree.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
